-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  What one GraphSAGE layer's dense part computes, entry by entry, on the extended reals.

  A layer takes the neighbour means `a` and the node features `h` (both 100000 rows of 128 features), two weight
  matrices `Wl`, `Wr` with 128 rows and `D` columns, and a bias row `b`. Entry (p, q) of its result is

      (∑ₖ a[p, k] · Wl[k, q]) + (∑ₖ h[p, k] · Wr[k, q]) + b[0, q],

  the two sums in this order, and the first layer then takes the maximum with zero. Both programs compute
  exactly this: the kernel on blocks of 5000 rows, the reference on the whole arrays; a row's entry depends on
  that row of `a` and `h` only, which is why the tiling does not matter.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Sage

/-- Entry (p, q) of `a · Wl + h · Wr + b` for arrays of `R` rows: row `p` of `a` against column `q` of `Wl`, plus
    row `p` of `h` against column `q` of `Wr`, plus the bias. -/
def affAt {R D : Nat} (a h : FVec Ideal ⟨2, ![R, 128]⟩ .f32) (Wl Wr : FVec Ideal ⟨2, ![128, D]⟩ .f32)
    (b : FVec Ideal ⟨2, ![1, D]⟩ .f32) (p : Fin R) (q : Fin D) : EReal :=
  (∑ k : Fin 128, a (ix2 p k) * Wl (ix2 k q)) + (∑ k : Fin 128, h (ix2 p k) * Wr (ix2 k q)) + b (ix2 0 q)

/-- The second layer's dense part over the whole arrays (no activation). -/
def dense {R D : Nat} (a h : FVec Ideal ⟨2, ![R, 128]⟩ .f32) (Wl Wr : FVec Ideal ⟨2, ![128, D]⟩ .f32)
    (b : FVec Ideal ⟨2, ![1, D]⟩ .f32) : FVec Ideal ⟨2, ![R, D]⟩ .f32 :=
  fun i => affAt a h Wl Wr b (i 0) (i 1)

/-- The first layer's dense part: the same, then the maximum with zero. -/
def denseRelu {R D : Nat} (a h : FVec Ideal ⟨2, ![R, 128]⟩ .f32) (Wl Wr : FVec Ideal ⟨2, ![128, D]⟩ .f32)
    (b : FVec Ideal ⟨2, ![1, D]⟩ .f32) : FVec Ideal ⟨2, ![R, D]⟩ .f32 :=
  fun i => max (affAt a h Wl Wr b (i 0) (i 1)) (Ideal.ofBits .f32 0x00000000#32)

theorem dense_apply {R D : Nat} (a h : FVec Ideal ⟨2, ![R, 128]⟩ .f32) (Wl Wr : FVec Ideal ⟨2, ![128, D]⟩ .f32)
    (b : FVec Ideal ⟨2, ![1, D]⟩ .f32) (p : Fin R) (q : Fin D) :
    dense a h Wl Wr b (ix2 p q) = affAt a h Wl Wr b p q := rfl

theorem denseRelu_apply {R D : Nat} (a h : FVec Ideal ⟨2, ![R, 128]⟩ .f32) (Wl Wr : FVec Ideal ⟨2, ![128, D]⟩ .f32)
    (b : FVec Ideal ⟨2, ![1, D]⟩ .f32) (p : Fin R) (q : Fin D) :
    denseRelu a h Wl Wr b (ix2 p q) = max (affAt a h Wl Wr b p q) (Ideal.ofBits .f32 0x00000000#32) := rfl

end Cert.Sage

end
-- ==== Proof.Block0.lean ====
/-
  One block of a layer, entry by entry: what the kernel body stores for a block of 5000 rows is the layer's dense
  part of those rows. The body rounds its four matrix operands to bf16 (the identity on the extended reals), forms
  the two products into zero accumulators (each entry the sum over the 128 features), adds them, adds the bias row
  broadcast down the rows, and takes the maximum with zero.
-/
import proofs.«137748_j72911364817007_1_alg».proof.Proof.Gen.KernelIdeal.Skeleton
import proofs.«137748_j72911364817007_1_alg».proof.Proof.Spec
import Idealize.ShloMosaic.Lib.Pipeline.Value
import Idealize.ShloMosaic.Lib.ValueIdx
import Idealize.ShloMosaic.PureOps.Ideal.Laws

noncomputable section

namespace Cert.KernelIdeal.Block0

open Cert.KernelIdeal Cert.KernelIdeal.Gen Idealize.ShloMosaic Idealize.ShloMosaic.ValueIdx Cert.Sage
open scoped BigOperators

/-! ## The product's operand indices, axis by axis -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_feature (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_feature (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a weight matrix into a zero accumulator: entry (p, q) is the sum over the 128 features of
    the block's row p against the matrix's column q. -/
theorem product_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_feature _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_feature _ _).trans hk
    | ⟨1, _⟩ => exact rhs_col _ _)
  rw [el, er]

/-- The bias row broadcast down the block's rows reads the bias at the entry's column. -/
theorem bias_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- What the body stores, at entry (p, q) of the block: the layer's dense part of the block's rows. -/
theorem stored_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = max (affAt x0 x1 x2 x3 x4 p q) (Ideal.ofBits .f32 0x00000000#32) := by
  unfold k0_pay1 affAt
  simp only [shapeCast_self]
  rw [maximumf_apply, addf_apply, addf_apply, product_apply, product_apply, bias_apply]
  rfl

end Cert.KernelIdeal.Block0

end
-- ==== Proof.Region0.lean ====
/-
  A layer's kernel region over the whole arrays. The grid has 20 points; point t stages rows 5000·t … 5000·t + 4999
  of the neighbour means and of the node features, the two weight matrices and the bias row whole, and writes back
  rows 5000·t … 5000·t + 4999 of the result. A result entry depends on its own row only, so what point t writes back
  is the block's rows of the layer's dense part of the whole arrays, and the 20 blocks tile the 100000 rows: the
  result array ends holding the dense part.
-/
import proofs.«137748_j72911364817007_1_alg».proof.Proof.Gen.KernelIdeal.Frame
import proofs.«137748_j72911364817007_1_alg».proof.Proof.Block0
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The region's five operand arrays as it finds them, at their literal types. -/
abbrev meanArr (c : Dev nD) : Vec Ideal S100000x128 .f32 := V c main_v24
abbrev featArr (c : Dev nD) : Vec Ideal S100000x128 .f32 := V c main_arg0
abbrev wlArr (c : Dev nD) : Vec Ideal S128x128 .f32 := V c main_arg2
abbrev wrArr (c : Dev nD) : Vec Ideal S128x128 .f32 := V c main_arg4
abbrev biasArr (c : Dev nD) : Vec Ideal S1x128 .f32 := V c main_v25

/-- What the result array holds after the region: the layer's dense part of the operand arrays. -/
abbrev layerOf (c : Dev nD) : Vec Ideal S100000x128 .f32 :=
  denseRelu (meanArr V c) (featArr V c) (wlArr V c) (wrArr V c) (biasArr V c)

/-- The windows' blocks at a point, at their literal types. -/
abbrev meanBlk (c : Dev nD) (t : Fin cfg0.N) : Vec Ideal S5000x128 .f32 := iblk0 V c 0 t
abbrev featBlk (c : Dev nD) (t : Fin cfg0.N) : Vec Ideal S5000x128 .f32 := iblk0 V c 1 t
abbrev wlBlk (c : Dev nD) (t : Fin cfg0.N) : Vec Ideal S128x128 .f32 := iblk0 V c 2 t
abbrev wrBlk (c : Dev nD) (t : Fin cfg0.N) : Vec Ideal S128x128 .f32 := iblk0 V c 3 t
abbrev biasBlk (c : Dev nD) (t : Fin cfg0.N) : Vec Ideal S1x128 .f32 := iblk0 V c 4 t

/-- The printed index maps over the grid: the row-blocked windows sit at block (t, 0), the whole ones at (0, 0). -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p, feature k of the neighbour means' block at point t is row 5000·t + p of the array. -/
theorem meanBlk_apply (c : Dev nD) (t : Fin cfg0.N) (p : Fin 5000) (k : Fin 128) (r : Fin 100000) (hr : r.val = t.val * 5000 + p.val) :
    meanBlk V c t (ix2 p k) = meanArr V c (ix2 r k) := by
  obtain ⟨e00, e01, -⟩ := index_facts t
  show V c main_v24 (((cfg0.win 0).blk t).view.emb (ix2 p k)) = V c main_v24 (ix2 r k)
  refine congrArg (V c main_v24) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

theorem featBlk_apply (c : Dev nD) (t : Fin cfg0.N) (p : Fin 5000) (k : Fin 128) (r : Fin 100000) (hr : r.val = t.val * 5000 + p.val) :
    featBlk V c t (ix2 p k) = featArr V c (ix2 r k) := by
  obtain ⟨-, -, e10, e11, -⟩ := index_facts t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The weight matrices and the bias row are staged whole. -/
theorem wlBlk_apply (c : Dev nD) (t : Fin cfg0.N) (k : Fin 128) (q : Fin 128) :
    wlBlk V c t (ix2 k q) = wlArr V c (ix2 k q) := by
  obtain ⟨-, -, -, -, e20, e21, -⟩ := index_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem wrBlk_apply (c : Dev nD) (t : Fin cfg0.N) (k : Fin 128) (q : Fin 128) :
    wrBlk V c t (ix2 k q) = wrArr V c (ix2 k q) := by
  obtain ⟨-, -, -, -, -, -, e30, e31, -⟩ := index_facts t
  show V c main_arg4 (((cfg0.win 3).blk t).view.emb (ix2 k q)) = V c main_arg4 (ix2 k q)
  refine congrArg (V c main_arg4) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem biasBlk_apply (c : Dev nD) (t : Fin cfg0.N) (q : Fin 128) :
    biasBlk V c t (ix2 0 q) = biasArr V c (ix2 0 q) := by
  obtain ⟨-, -, -, -, -, -, -, -, e40, e41, -⟩ := index_facts t
  show V c main_v25 (((cfg0.win 4).blk t).view.emb (ix2 0 q)) = V c main_v25 (ix2 0 q)
  refine congrArg (V c main_v25) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The dense part of a block's rows is the dense part of the whole arrays at those rows. -/
theorem affAt_block (c : Dev nD) (t : Fin cfg0.N) (p : Fin 5000) (q : Fin 128) (r : Fin 100000) (hr : r.val = t.val * 5000 + p.val) :
    affAt (meanBlk V c t) (featBlk V c t) (wlBlk V c t) (wrBlk V c t) (biasBlk V c t) p q
      = affAt (meanArr V c) (featArr V c) (wlArr V c) (wrArr V c) (biasArr V c) r q := by
  unfold affAt
  rw [biasBlk_apply V c t q]
  refine congrArg₂ (· + ·) (congrArg₂ (· + ·) (Finset.sum_congr rfl fun k _ => ?_) (Finset.sum_congr rfl fun k _ => ?_)) rfl
  · rw [meanBlk_apply V c t p k r hr, wlBlk_apply V c t k q]
  · rw [featBlk_apply V c t p k r hr, wrBlk_apply V c t k q]

/-- What point t writes back: the block's rows of the layer's dense part of the whole arrays. -/
theorem flushed_eq (c : Dev nD) (t : Fin cfg0.N) :
    (dat0 V c).flushed 5 t = ((cfg0.win 5).blk t).view.read (Elt Ideal) (layerOf V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  obtain ⟨-, -, -, -, -, -, -, -, -, -, e50, e51⟩ := index_facts t
  funext j
  obtain ⟨p, q, rfl⟩ : ∃ (p : Fin 5000) (q : Fin 128), j = ix2 p q := ⟨j 0, j 1, eq_ix2 j⟩
  have hlt : t.val * 5000 + p.val < 100000 := by
    have hN : cfg0.N = 20 := N_0
    have h1 : t.val < cfg0.N := t.isLt
    have h2 := p.isLt
    omega
  show k0_pay1 (F := Ideal) (meanBlk V c t) (featBlk V c t) (wlBlk V c t) (wrBlk V c t) (biasBlk V c t) (ix2 p q)
    = layerOf V c (((cfg0.win 5).blk t).view.emb (ix2 p q))
  have hemb : ((cfg0.win 5).blk t).view.emb (ix2 p q) = ix2 (⟨t.val * 5000 + p.val, hlt⟩ : Fin 100000) q :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  rw [hemb]
  refine (Cert.KernelIdeal.Block0.stored_apply (meanBlk V c t) (featBlk V c t) (wlBlk V c t) (wrBlk V c t) (biasBlk V c t) p q).trans ?_
  rw [affAt_block V c t p q ⟨t.val * 5000 + p.val, hlt⟩ rfl]
  rfl

/-- An index of the result array is in point t's block iff each coordinate is in the block's range. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row lies in the block of the point row / 5000. -/
theorem covered (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e50, e51⟩ := index_facts t
  have ht : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the region is the layer's dense part of the operand arrays as the region found them. -/
theorem final (c : Dev nD) : (dat0 V c).arrAt 5 cfg0.N = layerOf V c :=
  (dat0 V c).arrAt_eq_of_cover 5 (layerOf V c) (fun t _ => flushed_eq V c t) (covered)

end Cert.KernelIdeal.Region0

end
-- ==== Proof.Block1.lean ====
/-
  One block of a layer, entry by entry: what the kernel body stores for a block of 5000 rows is the layer's dense
  part of those rows. The body rounds its four matrix operands to bf16 (the identity on the extended reals), forms
  the two products into zero accumulators (each entry the sum over the 128 features), adds them, adds the bias row
  broadcast down the rows.
-/
import proofs.«137748_j72911364817007_1_alg».proof.Proof.Gen.KernelIdeal.Skeleton
import proofs.«137748_j72911364817007_1_alg».proof.Proof.Spec
import Idealize.ShloMosaic.Lib.Pipeline.Value
import Idealize.ShloMosaic.Lib.ValueIdx
import Idealize.ShloMosaic.PureOps.Ideal.Laws

noncomputable section

namespace Cert.KernelIdeal.Block1

open Cert.KernelIdeal Cert.KernelIdeal.Gen Idealize.ShloMosaic Idealize.ShloMosaic.ValueIdx Cert.Sage
open scoped BigOperators

/-! ## The product's operand indices, axis by axis -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_feature (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_feature (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block's product with a weight matrix into a zero accumulator: entry (p, q) is the sum over the 128 features of
    the block's row p against the matrix's column q. -/
theorem product_apply (x : FVec Ideal S5000x128 .bf16) (w : FVec Ideal S128x64 .bf16) (p : Fin 5000) (q : Fin 64) :
    matmul dot_S5000x128_S128x64_S5000x64_1_0_0_1_n_n none x w (constant S5000x64 .f32 0x00000000#32) (ix2 p q)
      = ∑ k : Fin 128, x (ix2 p k) * w (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_feature _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_feature _ _).trans hk
    | ⟨1, _⟩ => exact rhs_col _ _)
  rw [el, er]

/-- The bias row broadcast down the block's rows reads the bias at the entry's column. -/
theorem bias_apply (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

/-- What the body stores, at entry (p, q) of the block: the layer's dense part of the block's rows. -/
theorem stored_apply (x0 x1 : Vec Ideal S5000x128 .f32) (x2 x3 : Vec Ideal S128x64 .f32) (x4 : Vec Ideal S1x64 .f32)
    (p : Fin 5000) (q : Fin 64) :
    k1_pay1 (F := Ideal) x0 x1 x2 x3 x4 (ix2 p q) = affAt x0 x1 x2 x3 x4 p q := by
  unfold k1_pay1 affAt
  simp only [shapeCast_self]
  rw [addf_apply, addf_apply, product_apply, product_apply, bias_apply]
  rfl

end Cert.KernelIdeal.Block1

end
-- ==== Proof.Region1.lean ====
/-
  A layer's kernel region over the whole arrays. The grid has 20 points; point t stages rows 5000·t … 5000·t + 4999
  of the neighbour means and of the node features, the two weight matrices and the bias row whole, and writes back
  rows 5000·t … 5000·t + 4999 of the result. A result entry depends on its own row only, so what point t writes back
  is the block's rows of the layer's dense part of the whole arrays, and the 20 blocks tile the 100000 rows: the
  result array ends holding the dense part.
-/
import proofs.«137748_j72911364817007_1_alg».proof.Proof.Gen.KernelIdeal.Frame
import proofs.«137748_j72911364817007_1_alg».proof.Proof.Block1
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The region's five operand arrays as it finds them, at their literal types. -/
abbrev meanArr (c : Dev nD) : Vec Ideal S100000x128 .f32 := V c main_v39
abbrev featArr (c : Dev nD) : Vec Ideal S100000x128 .f32 := V c main_v26
abbrev wlArr (c : Dev nD) : Vec Ideal S128x64 .f32 := V c main_arg5
abbrev wrArr (c : Dev nD) : Vec Ideal S128x64 .f32 := V c main_arg7
abbrev biasArr (c : Dev nD) : Vec Ideal S1x64 .f32 := V c main_v40

/-- What the result array holds after the region: the layer's dense part of the operand arrays. -/
abbrev layerOf (c : Dev nD) : Vec Ideal S100000x64 .f32 :=
  dense (meanArr V c) (featArr V c) (wlArr V c) (wrArr V c) (biasArr V c)

/-- The windows' blocks at a point, at their literal types. -/
abbrev meanBlk (c : Dev nD) (t : Fin cfg1.N) : Vec Ideal S5000x128 .f32 := iblk1 V c 0 t
abbrev featBlk (c : Dev nD) (t : Fin cfg1.N) : Vec Ideal S5000x128 .f32 := iblk1 V c 1 t
abbrev wlBlk (c : Dev nD) (t : Fin cfg1.N) : Vec Ideal S128x64 .f32 := iblk1 V c 2 t
abbrev wrBlk (c : Dev nD) (t : Fin cfg1.N) : Vec Ideal S128x64 .f32 := iblk1 V c 3 t
abbrev biasBlk (c : Dev nD) (t : Fin cfg1.N) : Vec Ideal S1x64 .f32 := iblk1 V c 4 t

/-- The printed index maps over the grid: the row-blocked windows sit at block (t, 0), the whole ones at (0, 0). -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p, feature k of the neighbour means' block at point t is row 5000·t + p of the array. -/
theorem meanBlk_apply (c : Dev nD) (t : Fin cfg1.N) (p : Fin 5000) (k : Fin 128) (r : Fin 100000) (hr : r.val = t.val * 5000 + p.val) :
    meanBlk V c t (ix2 p k) = meanArr V c (ix2 r k) := by
  obtain ⟨e00, e01, -⟩ := index_facts t
  show V c main_v39 (((cfg1.win 0).blk t).view.emb (ix2 p k)) = V c main_v39 (ix2 r k)
  refine congrArg (V c main_v39) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

theorem featBlk_apply (c : Dev nD) (t : Fin cfg1.N) (p : Fin 5000) (k : Fin 128) (r : Fin 100000) (hr : r.val = t.val * 5000 + p.val) :
    featBlk V c t (ix2 p k) = featArr V c (ix2 r k) := by
  obtain ⟨-, -, e10, e11, -⟩ := index_facts t
  show V c main_v26 (((cfg1.win 1).blk t).view.emb (ix2 p k)) = V c main_v26 (ix2 r k)
  refine congrArg (V c main_v26) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The weight matrices and the bias row are staged whole. -/
theorem wlBlk_apply (c : Dev nD) (t : Fin cfg1.N) (k : Fin 128) (q : Fin 64) :
    wlBlk V c t (ix2 k q) = wlArr V c (ix2 k q) := by
  obtain ⟨-, -, -, -, e20, e21, -⟩ := index_facts t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

theorem wrBlk_apply (c : Dev nD) (t : Fin cfg1.N) (k : Fin 128) (q : Fin 64) :
    wrBlk V c t (ix2 k q) = wrArr V c (ix2 k q) := by
  obtain ⟨-, -, -, -, -, -, e30, e31, -⟩ := index_facts t
  show V c main_arg7 (((cfg1.win 3).blk t).view.emb (ix2 k q)) = V c main_arg7 (ix2 k q)
  refine congrArg (V c main_arg7) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

theorem biasBlk_apply (c : Dev nD) (t : Fin cfg1.N) (q : Fin 64) :
    biasBlk V c t (ix2 0 q) = biasArr V c (ix2 0 q) := by
  obtain ⟨-, -, -, -, -, -, -, -, e40, e41, -⟩ := index_facts t
  show V c main_v40 (((cfg1.win 4).blk t).view.emb (ix2 0 q)) = V c main_v40 (ix2 0 q)
  refine congrArg (V c main_v40) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The dense part of a block's rows is the dense part of the whole arrays at those rows. -/
theorem affAt_block (c : Dev nD) (t : Fin cfg1.N) (p : Fin 5000) (q : Fin 64) (r : Fin 100000) (hr : r.val = t.val * 5000 + p.val) :
    affAt (meanBlk V c t) (featBlk V c t) (wlBlk V c t) (wrBlk V c t) (biasBlk V c t) p q
      = affAt (meanArr V c) (featArr V c) (wlArr V c) (wrArr V c) (biasArr V c) r q := by
  unfold affAt
  rw [biasBlk_apply V c t q]
  refine congrArg₂ (· + ·) (congrArg₂ (· + ·) (Finset.sum_congr rfl fun k _ => ?_) (Finset.sum_congr rfl fun k _ => ?_)) rfl
  · rw [meanBlk_apply V c t p k r hr, wlBlk_apply V c t k q]
  · rw [featBlk_apply V c t p k r hr, wrBlk_apply V c t k q]

/-- What point t writes back: the block's rows of the layer's dense part of the whole arrays. -/
theorem flushed_eq (c : Dev nD) (t : Fin cfg1.N) :
    (dat1 V c).flushed 5 t = ((cfg1.win 5).blk t).view.read (Elt Ideal) (layerOf V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x64) origin, View.ld_unit_zero (S := S1x64) origin]
  obtain ⟨-, -, -, -, -, -, -, -, -, -, e50, e51⟩ := index_facts t
  funext j
  obtain ⟨p, q, rfl⟩ : ∃ (p : Fin 5000) (q : Fin 64), j = ix2 p q := ⟨j 0, j 1, eq_ix2 j⟩
  have hlt : t.val * 5000 + p.val < 100000 := by
    have hN : cfg1.N = 20 := N_1
    have h1 : t.val < cfg1.N := t.isLt
    have h2 := p.isLt
    omega
  show k1_pay1 (F := Ideal) (meanBlk V c t) (featBlk V c t) (wlBlk V c t) (wrBlk V c t) (biasBlk V c t) (ix2 p q)
    = layerOf V c (((cfg1.win 5).blk t).view.emb (ix2 p q))
  have hemb : ((cfg1.win 5).blk t).view.emb (ix2 p q) = ix2 (⟨t.val * 5000 + p.val, hlt⟩ : Fin 100000) q :=
    funext fun a => Fin.ext (by
      match a with
      | ⟨0, _⟩ => show win1_5.index t (0 : Fin 2) * 5000 + 1 * p.val = t.val * 5000 + p.val; omega
      | ⟨1, _⟩ => show win1_5.index t (1 : Fin 2) * 64 + 1 * q.val = q.val; omega)
  rw [hemb]
  refine (Cert.KernelIdeal.Block1.stored_apply (meanBlk V c t) (featBlk V c t) (wlBlk V c t) (wrBlk V c t) (biasBlk V c t) p q).trans ?_
  rw [affAt_block V c t p q ⟨t.val * 5000 + p.val, hlt⟩ rfl]
  rfl

/-- An index of the result array is in point t's block iff each coordinate is in the block's range. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Every row lies in the block of the point row / 5000. -/
theorem covered (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, e50, e51⟩ := index_facts t
  have ht : t.val = (i 0).val / 5000 := rfl
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The result array after the region is the layer's dense part of the operand arrays as the region found them. -/
theorem final (c : Dev nD) : (dat1 V c).arrAt 5 cfg1.N = layerOf V c :=
  (dat1 V c).arrAt_eq_of_cover 5 (layerOf V c) (fun t _ => flushed_eq V c t) (covered)

end Cert.KernelIdeal.Region1

end
-- ==== Proof.RefValue.lean ====
/-
  The reference program, layer by layer. Its host operations compute, for each layer, the neighbour means of the
  layer's input (a gather of the source rows, a scatter-add into the destination rows, a product with the inverse
  degrees: one function of the input array and the edge list, the same for both layers) and then the dense part:
  two whole-array products, their sum, the bias row broadcast down the rows, and for the first layer the maximum
  with zero. Read entry by entry the dense part of each layer is the specification's.
-/
import proofs.«137748_j72911364817007_1_alg».proof.Proof.Gen.ReferenceIdeal.Run
import proofs.«137748_j72911364817007_1_alg».proof.Proof.Gen.ReferenceIdeal.Read
import proofs.«137748_j72911364817007_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Sage
open scoped BigOperators

section AnyInstance

variable {F : FTy → Type} [FloatOps F]

/-- The neighbour means of a feature array `h` along the edge list `e`: gather the source rows, add each into its
    destination row starting from zero, scale each row by the inverse of its (clamped) in-degree. -/
def neighbourMean (h : (⟨S100000x128, .f32⟩ : BufTy).Contents (Elt F)) (e : (⟨S2x1600000, .i32⟩ : BufTy).Contents (Elt F)) : (⟨S100000x128, .f32⟩ : BufTy).Contents (Elt F) :=
  mulf (Host.scatterAdd scatter_S100000x128_S1600000x1_S1600000x128_1_0_0_1 (val_main_v19 (F := F)) (val_main_v20 (F := F) e)
    (Host.gather gather_S100000x128_S1600000x1_S1600000x128_1_0_n_n_0_1_1128 h (val_main_v17 (F := F) e))) (val_main_v23 (F := F) e)

/-- The first layer's neighbour means are those of the node features. -/
theorem mean_first (x0 : (⟨S100000x128, .f32⟩ : BufTy).Contents (Elt F)) (x1 : (⟨S2x1600000, .i32⟩ : BufTy).Contents (Elt F)) :
    val_main_v24 (F := F) x0 x1 = neighbourMean x0 x1 := rfl

/-- The second layer's are those of the first layer's result: the same operations with the same constants. -/
theorem mean_second (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v44 (F := F) x0 x1 x2 x3 x4 = neighbourMean (val_main_v31 (F := F) x0 x1 x2 x3 x4) x1 := rfl

end AnyInstance

/-! ## The operand indices of the whole-array products and of the bias broadcast -/

theorem left_first (p : Fin 100000) (q : Fin 128) (k : Fin 128) : lidx_main_v25 (ix2 p q) k = ix2 p k :=
  funext fun a => by match a with | ⟨0, _⟩ => rfl | ⟨1, _⟩ => rfl
theorem right_first (p : Fin 100000) (q : Fin 128) (k : Fin 128) : ridx_main_v25 (ix2 p q) k = ix2 k q :=
  funext fun a => by match a with | ⟨0, _⟩ => rfl | ⟨1, _⟩ => rfl
theorem left_first' (p : Fin 100000) (q : Fin 128) (k : Fin 128) : lidx_main_v26 (ix2 p q) k = ix2 p k :=
  funext fun a => by match a with | ⟨0, _⟩ => rfl | ⟨1, _⟩ => rfl
theorem right_first' (p : Fin 100000) (q : Fin 128) (k : Fin 128) : ridx_main_v26 (ix2 p q) k = ix2 k q :=
  funext fun a => by match a with | ⟨0, _⟩ => rfl | ⟨1, _⟩ => rfl
theorem bias_first (p : Fin 100000) (q : Fin 128) : idx_main_v29 (ix2 p q) = ix2 0 q :=
  funext fun a => by match a with | ⟨0, _⟩ => rfl | ⟨1, _⟩ => rfl
theorem left_second (p : Fin 100000) (q : Fin 64) (k : Fin 128) : lidx_main_v45 (ix2 p q) k = ix2 p k :=
  funext fun a => by match a with | ⟨0, _⟩ => rfl | ⟨1, _⟩ => rfl
theorem right_second (p : Fin 100000) (q : Fin 64) (k : Fin 128) : ridx_main_v45 (ix2 p q) k = ix2 k q :=
  funext fun a => by match a with | ⟨0, _⟩ => rfl | ⟨1, _⟩ => rfl
theorem left_second' (p : Fin 100000) (q : Fin 64) (k : Fin 128) : lidx_main_v46 (ix2 p q) k = ix2 p k :=
  funext fun a => by match a with | ⟨0, _⟩ => rfl | ⟨1, _⟩ => rfl
theorem right_second' (p : Fin 100000) (q : Fin 64) (k : Fin 128) : ridx_main_v46 (ix2 p q) k = ix2 k q :=
  funext fun a => by match a with | ⟨0, _⟩ => rfl | ⟨1, _⟩ => rfl
theorem bias_second (p : Fin 100000) (q : Fin 64) : idx_main_v49 (ix2 p q) = ix2 0 q :=
  funext fun a => by match a with | ⟨0, _⟩ => rfl | ⟨1, _⟩ => rfl

/-! ## The two layers -/

/-- The first layer's result is the dense part, with the maximum, of its neighbour means, the node features, its two
    weight matrices and its bias as a row. -/
theorem first_layer (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4
      = denseRelu (val_main_v24 (F := Ideal) x0 x1) x0 x2 x4 (val_main_v28 (F := Ideal) x3) := by
  funext i
  obtain ⟨p, q, rfl⟩ : ∃ (p : Fin 100000) (q : Fin 128), i = ix2 p q := ⟨i 0, i 1, eq_ix2 i⟩
  rw [val_main_v31_apply, val_main_v30_apply, val_main_v27_apply, val_main_v25_apply, val_main_v26_apply, val_main_v29_apply,
    val_main_call0_v0_apply, val_main_call0_cst_apply]
  simp only [left_first, right_first, left_first', right_first', bias_first]
  rfl

/-- The second layer's result is the dense part of its neighbour means, the first layer's result, its two weight
    matrices and its bias as a row. -/
theorem second_layer (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x64, .f32⟩ : BufTy).Contents (Elt Ideal)) (x6 : (⟨S64, .f32⟩ : BufTy).Contents (Elt Ideal)) (x7 : (⟨S128x64, .f32⟩ : BufTy).Contents (Elt Ideal)) :
    val_main_v50 (F := Ideal) x0 x1 x2 x3 x4 x5 x6 x7
      = dense (val_main_v44 (F := Ideal) x0 x1 x2 x3 x4) (val_main_v31 (F := Ideal) x0 x1 x2 x3 x4) x5 x7 (val_main_v48 (F := Ideal) x6) := by
  funext i
  obtain ⟨p, q, rfl⟩ : ∃ (p : Fin 100000) (q : Fin 64), i = ix2 p q := ⟨i 0, i 1, eq_ix2 i⟩
  rw [val_main_v50_apply, val_main_v47_apply, val_main_v45_apply, val_main_v46_apply, val_main_v49_apply]
  simp only [left_second, right_second, left_second', right_second', bias_second]
  rfl

end Cert.ReferenceIdeal.RefValue

end
-- ==== Proof.KernelValue.lean ====
/-
  The kernel program's result, followed through its four segments. The first stretch of host operations computes
  the first layer's neighbour means from the node features and the edge list, and the first bias as a row; the first
  kernel region leaves the first layer's dense part (with the maximum) in its result array; the second stretch
  computes the neighbour means of that array along the same edge list, and the second bias as a row; the second
  region leaves the second layer's dense part. Each stretch's values are the reference's own operations on the same
  arrays (the two programs print the same host operations), the bias row is the same whether the vector is reshaped
  or broadcast to one row, and each region's array is the specification's dense part: so the result is the
  reference's result term of the launch arrays.
-/
import proofs.«137748_j72911364817007_1_alg».proof.Proof.Gen.KernelIdeal.Frame
import proofs.«137748_j72911364817007_1_alg».proof.Proof.Gen.ReferenceIdeal.Read
import proofs.«137748_j72911364817007_1_alg».proof.Proof.Region0
import proofs.«137748_j72911364817007_1_alg».proof.Proof.Region1
import proofs.«137748_j72911364817007_1_alg».proof.Proof.RefValue
import Idealize.ShloMosaic.Lib.StableHlo.Run
import Idealize.ShloMosaic.Lib.Pipeline.Value

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Cert.Sage Cert.ReferenceIdeal.Read Cert.ReferenceIdeal.RefValue

variable (m : (ℓ : Loc nD τ sig) → Buf (Elt Ideal) ℓ) (ρ : Dev nD → PrngReg)

/-! ## A bias vector as a row: reshaped or broadcast, entry (0, q) is the vector's entry q -/

theorem row_first (b : S128.Idx → Elt Ideal .f32) :
    shapeCast S1x128 b shapeCasts_S128_S1x128 = val_main_v28 (F := Ideal) b := by
  funext i
  rw [val_main_v28_apply]
  exact shapeCast_apply b shapeCasts_S128_S1x128 i (idx_main_v28 i) (by
    rewrite [Shape.rowMajor_val_one, Shape.rowMajor_val_two]
    have h0 : (i 0).val < 1 := (i 0).isLt
    show (i 1).val = (i 0).val * 128 + (i 1).val
    omega)

theorem row_second (b : S64.Idx → Elt Ideal .f32) :
    shapeCast S1x64 b shapeCasts_S64_S1x64 = val_main_v48 (F := Ideal) b := by
  funext i
  rw [val_main_v48_apply]
  exact shapeCast_apply b shapeCasts_S64_S1x64 i (idx_main_v48 i) (by
    rewrite [Shape.rowMajor_val_one, Shape.rowMajor_val_two]
    have h0 : (i 0).val < 1 := (i 0).isLt
    show (i 1).val = (i 0).val * 64 + (i 1).val
    omega)

/-! ## After the first stretch of host operations -/

/-- The source and destination node of every edge, and the inverse degrees. -/
theorem src_first (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl
theorem dst_first (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem invdeg_first (c : Dev nD) : W1 m ρ c (Proc.devRef .tc main_v11) = val_main_v11 (F := Ideal) (m ((c : Thread nD τ).loc main_arg1)) := by
  show StableHlo.after hostOps0 (W0 m ρ c) (Proc.devRef .tc main_v11) = _
  after_results_simp
  rfl

/-- The first layer's neighbour means. -/
theorem mean_first_eq (c : Dev nD) : V1 m ρ c main_v24 = val_main_v24 (F := Ideal) (m ((c : Thread nD τ).loc main_arg0)) (m ((c : Thread nD τ).loc main_arg1)) := by
  show StableHlo.after hostOps0 (W0 m ρ c) (Proc.devRef .tc main_v24) = _
  after_results_simp
  rfl

/-- The first bias as a row. -/
theorem bias_first_eq (c : Dev nD) : V1 m ρ c main_v25 = val_main_v28 (F := Ideal) (m ((c : Thread nD τ).loc main_arg3)) := by
  show StableHlo.after hostOps0 (W0 m ρ c) (Proc.devRef .tc main_v25) = _
  after_results_simp
  exact row_first (m ((c : Thread nD τ).loc main_arg3))

/-- The argument arrays are as launched. -/
theorem arg0_first (c : Dev nD) : V1 m ρ c main_arg0 = (m ((c : Thread nD τ).loc main_arg0)) := by
  show StableHlo.after hostOps0 (W0 m ρ c) (Proc.devRef .tc main_arg0) = _
  after_results_simp
theorem arg2_first (c : Dev nD) : V1 m ρ c main_arg2 = (m ((c : Thread nD τ).loc main_arg2)) := by
  show StableHlo.after hostOps0 (W0 m ρ c) (Proc.devRef .tc main_arg2) = _
  after_results_simp
theorem arg4_first (c : Dev nD) : V1 m ρ c main_arg4 = (m ((c : Thread nD τ).loc main_arg4)) := by
  show StableHlo.after hostOps0 (W0 m ρ c) (Proc.devRef .tc main_arg4) = _
  after_results_simp
theorem arg5_first (c : Dev nD) : W1 m ρ c (Proc.devRef .tc main_arg5) = (m ((c : Thread nD τ).loc main_arg5)) := by
  show StableHlo.after hostOps0 (W0 m ρ c) (Proc.devRef .tc main_arg5) = _
  after_results_simp
theorem arg6_first (c : Dev nD) : W1 m ρ c (Proc.devRef .tc main_arg6) = (m ((c : Thread nD τ).loc main_arg6)) := by
  show StableHlo.after hostOps0 (W0 m ρ c) (Proc.devRef .tc main_arg6) = _
  after_results_simp
theorem arg7_first (c : Dev nD) : W1 m ρ c (Proc.devRef .tc main_arg7) = (m ((c : Thread nD τ).loc main_arg7)) := by
  show StableHlo.after hostOps0 (W0 m ρ c) (Proc.devRef .tc main_arg7) = _
  after_results_simp

/-! ## After the first region -/

/-- The first region's result array holds the first layer's result. -/
theorem hidden_eq (c : Dev nD) : W2 m ρ c (Proc.devRef .tc main_v26) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Region0.final (V1 m ρ) c).trans ?_)
  show denseRelu (R := 100000) (D := 128) (V1 m ρ c main_v24) (V1 m ρ c main_arg0) (V1 m ρ c main_arg2) (V1 m ρ c main_arg4) (V1 m ρ c main_v25) = _
  rw [mean_first_eq m ρ c, arg0_first m ρ c, arg2_first m ρ c, arg4_first m ρ c, bias_first_eq m ρ c, first_layer]

/-- What the region does not write is as the first stretch left it. -/
theorem src_second (c : Dev nD) : W2 m ρ c (Proc.devRef .tc main_v1) = val_main_v1 (F := Ideal) (m ((c : Thread nD τ).loc main_arg1)) :=
  (W2_of_ne m ρ c main_v1 (by decide)).trans (src_first m ρ c)
theorem dst_second (c : Dev nD) : W2 m ρ c (Proc.devRef .tc main_v3) = val_main_v3 (F := Ideal) (m ((c : Thread nD τ).loc main_arg1)) :=
  (W2_of_ne m ρ c main_v3 (by decide)).trans (dst_first m ρ c)
theorem invdeg_second (c : Dev nD) : W2 m ρ c (Proc.devRef .tc main_v11) = val_main_v11 (F := Ideal) (m ((c : Thread nD τ).loc main_arg1)) :=
  (W2_of_ne m ρ c main_v11 (by decide)).trans (invdeg_first m ρ c)
theorem arg5_second (c : Dev nD) : W2 m ρ c (Proc.devRef .tc main_arg5) = (m ((c : Thread nD τ).loc main_arg5)) :=
  (W2_of_ne m ρ c main_arg5 (by decide)).trans (arg5_first m ρ c)
theorem arg6_second (c : Dev nD) : W2 m ρ c (Proc.devRef .tc main_arg6) = (m ((c : Thread nD τ).loc main_arg6)) :=
  (W2_of_ne m ρ c main_arg6 (by decide)).trans (arg6_first m ρ c)
theorem arg7_second (c : Dev nD) : W2 m ρ c (Proc.devRef .tc main_arg7) = (m ((c : Thread nD τ).loc main_arg7)) :=
  (W2_of_ne m ρ c main_arg7 (by decide)).trans (arg7_first m ρ c)

/-! ## After the second stretch of host operations -/

/-- The second layer's neighbour means: those of the first layer's result, along the same edges. -/
theorem mean_second_eq (c : Dev nD) :
    V3 m ρ c main_v39 = neighbourMean (F := Ideal) (val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v39) = _
  after_results_simp
  rw [hidden_eq m ρ c, src_second m ρ c, dst_second m ρ c, invdeg_second m ρ c]
  rfl

theorem hidden_second (c : Dev nD) : V3 m ρ c main_v26 = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results_simp
  exact hidden_eq m ρ c

theorem arg5_third (c : Dev nD) : V3 m ρ c main_arg5 = (m ((c : Thread nD τ).loc main_arg5)) := by
  show StableHlo.after hostOps1 (W2 m ρ c) (Proc.devRef .tc main_arg5) = _
  after_results_simp
  exact arg5_second m ρ c
theorem arg7_third (c : Dev nD) : V3 m ρ c main_arg7 = (m ((c : Thread nD τ).loc main_arg7)) := by
  show StableHlo.after hostOps1 (W2 m ρ c) (Proc.devRef .tc main_arg7) = _
  after_results_simp
  exact arg7_second m ρ c

/-- The second bias as a row. -/
theorem bias_second_eq (c : Dev nD) : V3 m ρ c main_v40 = val_main_v48 (F := Ideal) (m ((c : Thread nD τ).loc main_arg6)) := by
  show StableHlo.after hostOps1 (W2 m ρ c) (Proc.devRef .tc main_v40) = _
  after_results_simp
  rw [arg6_second m ρ c]
  exact row_second (m ((c : Thread nD τ).loc main_arg6))

/-! ## After the second region -/

/-- The program's result array holds the reference's result term of the launch arrays. -/
theorem result_eq (c : Dev nD) :
    W4 m ρ c (Proc.devRef .tc main_v41) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Region1.final (V3 m ρ) c).trans ?_)
  show dense (R := 100000) (D := 64) (V3 m ρ c main_v39) (V3 m ρ c main_v26) (V3 m ρ c main_arg5) (V3 m ρ c main_arg7) (V3 m ρ c main_v40) = _
  rw [mean_second_eq m ρ c, hidden_second m ρ c, arg5_third m ρ c, arg7_third m ρ c, bias_second_eq m ρ c, second_layer, mean_second]

end Cert.KernelIdeal.Result

end
-- ==== Proof.lean ====
/-
  Two GraphSAGE layers with mean aggregation over 100000 nodes and 1600000 edges: the kernel program against its
  reference, over the extended reals.

  Both programs compute the in-degrees and the neighbour means by the same host operations (a gather of the source
  rows, a scatter-add into the destination rows, a product with the inverse clamped degree). They differ in the
  dense part of each layer, `a · Wl + h · Wr + b` (then the maximum with zero in the first layer): the reference
  forms two whole-array products, the kernel program runs a grid of 20 points over blocks of 5000 rows, rounding
  its matrix operands to bf16 first. On the extended reals the rounding is the identity and a product into a zero
  accumulator is the plain sum over the 128 features; an entry of the dense part depends on its own row only, so
  the 20 blocks together are the whole-array result. No algebraic law is needed beyond that: both sides are the
  same sums in the same order, and the finiteness of the inputs is not used.

  The three frames are the generated ones (the reference's is its run with the result dropped); the kernel's
  idealization rewrote nothing, so `preserves` is trivial; `algebraic` puts the kernel program's run, read through
  its four segments, beside the reference's run at the same result term.
-/
import proofs.«137748_j72911364817007_1_alg».proof.Defs
import proofs.«137748_j72911364817007_1_alg».proof.Proof.Gen.Kernel
import proofs.«137748_j72911364817007_1_alg».proof.Proof.Gen.Kernel.Frame
import proofs.«137748_j72911364817007_1_alg».proof.Proof.Gen.KernelIdeal
import proofs.«137748_j72911364817007_1_alg».proof.Proof.Gen.KernelIdeal.Frame
import proofs.«137748_j72911364817007_1_alg».proof.Proof.Gen.ReferenceIdeal
import proofs.«137748_j72911364817007_1_alg».proof.Proof.Gen.ReferenceIdeal.Run
import proofs.«137748_j72911364817007_1_alg».proof.Proof.Gen.ReferenceIdeal.Read
import proofs.«137748_j72911364817007_1_alg».proof.Proof.Gen.Pre_finite_inputs
import proofs.«137748_j72911364817007_1_alg».proof.Proof.KernelRun
import proofs.«137748_j72911364817007_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's result term of the (agreeing) argument arrays. -/
theorem algebraic : Cert.algebraic_KernelIdeal_ReferenceIdeal := by
  intro m ρ m' ρ' _ hagree
  refine ⟨fun c => Cert.ReferenceIdeal.Read.val_main_v50 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result_eq m ρ c), (h c).2⟩)
      (Cert.KernelIdeal.Result.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
